-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S512x11008 : Shape := ⟨2, ![512, 11008]⟩
abbrev S11008x16 : Shape := ⟨2, ![11008, 16]⟩
abbrev S11008 : Shape := ⟨1, ![11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x16 : S_.BroadcastsInDim S11008x16 (![] : Fin 0 → Fin S11008x16.rank)
  reducesTo_S11008x16_S_d0_1 : S11008x16.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S2x2048x4096 .f32) (main_arg1 : IVec S512x11008 32) (main_arg2 : FVec F S11008x16 .f32) (main_arg3 : FVec F S11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x16 .f32 := Host.absf main_arg2
  let main_cst_0 : FVec F S_ .f32 := constant S_ .f32 0x7F800000#32
  let main_v5 : FVec F S11008x16 .f32 := broadcastInDim S11008x16 ![] bcast_S_S11008x16 main_cst_0
  let main_v6 : IVec S11008x16 1 := cmpf .olt main_v4 main_v5
  let main_c_1 : IVec S_ 1 := constantI S_ 1 1#1
  let main_v7 : IVec S_ 1 := (fun x v => Host.reduce IntOp.andi x v reducesTo_S11008x16_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S2x2048x4096 : Shape := ⟨3, ![2, 2048, 4096]⟩
abbrev S512x11008 : Shape := ⟨2, ![512, 11008]⟩
abbrev S11008x16 : Shape := ⟨2, ![11008, 16]⟩
abbrev S11008 : Shape := ⟨1, ![11008]⟩
abbrev S2x2048x512x8 : Shape := ⟨4, ![2, 2048, 512, 8]⟩
abbrev S2x2048x8x512 : Shape := ⟨4, ![2, 2048, 8, 512]⟩
abbrev S4096x4096 : Shape := ⟨2, ![4096, 4096]⟩
abbrev S16x11008 : Shape := ⟨2, ![16, 11008]⟩
abbrev S1x11008 : Shape := ⟨2, ![1, 11008]⟩
abbrev S4096x11008 : Shape := ⟨2, ![4096, 11008]⟩
abbrev S1024x4096 : Shape := ⟨2, ![1024, 4096]⟩
abbrev S512x256 : Shape := ⟨2, ![512, 256]⟩
abbrev S16x256 : Shape := ⟨2, ![16, 256]⟩
abbrev S1x256 : Shape := ⟨2, ![1, 256]⟩
abbrev S1024x256 : Shape := ⟨2, ![1024, 256]⟩
abbrev S1024x512 : Shape := ⟨2, ![1024, 512]⟩
abbrev S2x2048x11008 : Shape := ⟨3, ![2, 2048, 11008]⟩

abbrev nBuf : Space → Nat
  | .hbm => 12
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S512x11008, .i32⟩
  | .hbm, ⟨2, _⟩ => ⟨S11008x16, .f32⟩
  | .hbm, ⟨3, _⟩ => ⟨S11008, .f32⟩
  | .hbm, ⟨4, _⟩ => ⟨S2x2048x512x8, .f32⟩
  | .hbm, ⟨5, _⟩ => ⟨S2x2048x8x512, .f32⟩
  | .hbm, ⟨6, _⟩ => ⟨S4096x4096, .f32⟩
  | .hbm, ⟨7, _⟩ => ⟨S4096x4096, .bf16⟩
  | .hbm, ⟨8, _⟩ => ⟨S16x11008, .f32⟩
  | .hbm, ⟨9, _⟩ => ⟨S1x11008, .f32⟩
  | .hbm, ⟨10, _⟩ => ⟨S4096x11008, .f32⟩
  | .hbm, ⟨11, _⟩ => ⟨S2x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S512x256, .i32⟩
  | .local _ .vmem, ⟨3, _⟩ => ⟨S512x256, .i32⟩
  | .local _ .vmem, ⟨4, _⟩ => ⟨S16x256, .f32⟩
  | .local _ .vmem, ⟨5, _⟩ => ⟨S16x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 43], ![false, false]⟩

@[reducible] def k0_t1_loop : Scf.Loop 32 :=
  let c0_i32 : BitVec 32 := 0#32
  let c8_i32 : BitVec 32 := 8#32
  let v21 : BitVec 32 := Scalar.addi c0_i32 c8_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v114 : BitVec 32 := Scalar.muli arg7 c512_i32
  v114
def k0_off1 (k0_t1 : Fin k0_t1_loop.trips) : Fin 2 → Nat :=
  let c0_14 : Index := 0#32
  let c0_i32 : BitVec 32 := 0#32
  let c1_i32 : BitVec 32 := 1#32
  let arg7 : BitVec 32 := Scf.iv c0_i32 c1_i32 k0_t1
  let c512_i32 : BitVec 32 := 512#32
  let v114 : BitVec 32 := Scalar.muli arg7 c512_i32
  let v115 : BitVec 32 := v114
  let v116 : Index := Scalar.indexCast v115
  ![0, v116.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x2048x4096_S2x2048x512x8 : S2x2048x4096.ShapeCasts S2x2048x512x8
  transposes_S2x2048x512x8_S2x2048x8x512_0_1_3_2 : S2x2048x512x8.Transposes [0, 1, 3, 2] S2x2048x8x512
  shapeCasts_S2x2048x8x512_S4096x4096 : S2x2048x8x512.ShapeCasts S4096x4096
  bitsLt_bf16_f32 : FTy.bits .bf16 < FTy.bits .f32
  transposes_S11008x16_S16x11008_1_0 : S11008x16.Transposes [1, 0] S16x11008
  shapeCasts_S11008_S1x11008 : S11008.ShapeCasts S1x11008
  inb_S512x256_S512x256_0_0 : ∀ a, (![0, 0] : Fin 2 → Nat) a + S512x256.size a ≤ S512x256.size a
  h_S512x256 : 0 < S512x256.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  slices_S16x256_o0_0_S1x256 : S16x256.Slices ![0, 0] S1x256
  slices_S16x256_o1_0_S1x256 : S16x256.Slices ![1, 0] S1x256
  slices_S16x256_o2_0_S1x256 : S16x256.Slices ![2, 0] S1x256
  slices_S16x256_o3_0_S1x256 : S16x256.Slices ![3, 0] S1x256
  slices_S16x256_o4_0_S1x256 : S16x256.Slices ![4, 0] S1x256
  slices_S16x256_o5_0_S1x256 : S16x256.Slices ![5, 0] S1x256
  slices_S16x256_o6_0_S1x256 : S16x256.Slices ![6, 0] S1x256
  slices_S16x256_o7_0_S1x256 : S16x256.Slices ![7, 0] S1x256
  slices_S16x256_o8_0_S1x256 : S16x256.Slices ![8, 0] S1x256
  slices_S16x256_o9_0_S1x256 : S16x256.Slices ![9, 0] S1x256
  slices_S16x256_o10_0_S1x256 : S16x256.Slices ![10, 0] S1x256
  slices_S16x256_o11_0_S1x256 : S16x256.Slices ![11, 0] S1x256
  slices_S16x256_o12_0_S1x256 : S16x256.Slices ![12, 0] S1x256
  slices_S16x256_o13_0_S1x256 : S16x256.Slices ![13, 0] S1x256
  slices_S16x256_o14_0_S1x256 : S16x256.Slices ![14, 0] S1x256
  slices_S16x256_o15_0_S1x256 : S16x256.Slices ![15, 0] S1x256
  shapeCasts_S1x256_S1x256 : S1x256.ShapeCasts S1x256
  broadcasts_S1x256_S512x256 : S1x256.Broadcasts S512x256
  h_S1024x512 : 0 < S1024x512.numel
  shapeCasts_S1024x512_S1024x512 : S1024x512.ShapeCasts S1024x512
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S4096x11008_S2x2048x11008 : S4096x11008.ShapeCasts S2x2048x11008
  dot_S1024x512_S512x256_S1024x256_1_0_0_1_n_n_wf : DotDims.WF S1024x512 S512x256 S1024x256 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1024x512.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x11008.size a
  hwx0_1 : ∀ i : grid0.Coords, EltTy.bits .i32 = 32 ∨ (Rect.block (s := S512x11008) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x11008.size a
  hwx0_2 : ∀ i : grid0.Coords, EltTy.bits .f32 = 32 ∨ (Rect.block (s := S16x11008) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x11008.size a
  hwx0_4 : ∀ i : grid0.Coords, EltTy.bits .f32 = 32 ∨ (Rect.block (s := S4096x11008) S1024x256.size (cc0_transform_4 i) (hinb0_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v3) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S512x11008 : Shape := ⟨2, ![512, 11008]⟩
abbrev S11008x16 : Shape := ⟨2, ![11008, 16]⟩
abbrev S11008 : Shape := ⟨1, ![11008]⟩
abbrev S8 : Shape := ⟨1, ![8]⟩
abbrev S_ : Shape := ⟨0, ![]⟩
abbrev S1x8x1 : Shape := ⟨3, ![1, 8, 1]⟩
abbrev S512x1x11008 : Shape := ⟨3, ![512, 1, 11008]⟩
abbrev S512x8x11008 : Shape := ⟨3, ![512, 8, 11008]⟩
abbrev S4096x11008 : Shape := ⟨2, ![4096, 11008]⟩
abbrev S11008x4096 : Shape := ⟨2, ![11008, 4096]⟩
abbrev S11008x4096x1 : Shape := ⟨3, ![11008, 4096, 1]⟩
abbrev S1 : Shape := ⟨1, ![1]⟩
abbrev S1x1x1 : Shape := ⟨3, ![1, 1, 1]⟩
abbrev S2x2048x11008 : Shape := ⟨3, ![2, 2048, 11008]⟩
abbrev S1x1x11008 : Shape := ⟨3, ![1, 1, 11008]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S512x11008, .i32⟩
  | .hbm, ⟨2, _⟩ => ⟨S11008x16, .f32⟩
  | .hbm, ⟨3, _⟩ => ⟨S11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1x8x1, .i32⟩
  | .hbm, ⟨9, _⟩ => ⟨S512x1x11008, .i32⟩
  | .hbm, ⟨10, _⟩ => ⟨S512x8x11008, .i32⟩
  | .hbm, ⟨11, _⟩ => ⟨S512x8x11008, .i32⟩
  | .hbm, ⟨12, _⟩ => ⟨S512x8x11008, .i32⟩
  | .hbm, ⟨13, _⟩ => ⟨S_, .i32⟩
  | .hbm, ⟨14, _⟩ => ⟨S512x8x11008, .i32⟩
  | .hbm, ⟨15, _⟩ => ⟨S512x8x11008, .i32⟩
  | .hbm, ⟨16, _⟩ => ⟨S4096x11008, .i32⟩
  | .hbm, ⟨17, _⟩ => ⟨S11008x4096, .i32⟩
  | .hbm, ⟨18, _⟩ => ⟨S_, .i32⟩
  | .hbm, ⟨19, _⟩ => ⟨S11008x4096, .i32⟩
  | .hbm, ⟨20, _⟩ => ⟨S11008x4096, .i1⟩
  | .hbm, ⟨21, _⟩ => ⟨S_, .i32⟩
  | .hbm, ⟨22, _⟩ => ⟨S11008x4096, .i32⟩
  | .hbm, ⟨23, _⟩ => ⟨S11008x4096, .i32⟩
  | .hbm, ⟨24, _⟩ => ⟨S11008x4096, .i32⟩
  | .hbm, ⟨25, _⟩ => ⟨S11008x4096x1, .i32⟩
  | .hbm, ⟨26, _⟩ => ⟨S1, .i32⟩
  | .hbm, ⟨27, _⟩ => ⟨S_, .i32⟩
  | .hbm, ⟨28, _⟩ => ⟨S11008x4096x1, .i32⟩
  | .hbm, ⟨29, _⟩ => ⟨S11008x4096x1, .i1⟩
  | .hbm, ⟨30, _⟩ => ⟨S1x1x1, .i32⟩
  | .hbm, ⟨31, _⟩ => ⟨S11008x4096x1, .i32⟩
  | .hbm, ⟨32, _⟩ => ⟨S11008x4096x1, .i1⟩
  | .hbm, ⟨33, _⟩ => ⟨S11008x4096x1, .i1⟩
  | .hbm, ⟨34, _⟩ => ⟨S_, .i1⟩
  | .hbm, ⟨35, _⟩ => ⟨S11008x4096, .i1⟩
  | .hbm, ⟨36, _⟩ => ⟨S11008x4096, .f32⟩
  | .hbm, ⟨37, _⟩ => ⟨S_, .f32⟩
  | .hbm, ⟨38, _⟩ => ⟨S11008x4096, .f32⟩
  | .hbm, ⟨39, _⟩ => ⟨S11008x4096, .f32⟩
  | .hbm, ⟨40, _⟩ => ⟨S2x2048x11008, .f32⟩
  | .hbm, ⟨41, _⟩ => ⟨S1x1x11008, .f32⟩
  | .hbm, ⟨42, _⟩ => ⟨S2x2048x11008, .f32⟩
  | .hbm, ⟨43, _⟩ => ⟨S2x2048x11008, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S512x11008_S512x1x11008_0_2 : S512x11008.BroadcastsInDim S512x1x11008 (![0, 2] : Fin 2 → Fin S512x1x11008.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  transposes_S4096x11008_S11008x4096_1_0 : S4096x11008.Transposes [1, 0] S11008x4096
  bcast_S_S11008x4096 : S_.BroadcastsInDim S11008x4096 (![] : Fin 0 → Fin S11008x4096.rank)
  shapeCasts_S11008x4096_S11008x4096x1 : S11008x4096.ShapeCasts S11008x4096x1
  bcast_S_S11008x4096x1 : S_.BroadcastsInDim S11008x4096x1 (![] : Fin 0 → Fin S11008x4096x1.rank)
  bcast_S1_S1x1x1_2 : S1.BroadcastsInDim S1x1x1 (![2] : Fin 1 → Fin S1x1x1.rank)
  bcast_S1x1x1_S11008x4096x1_0_1_2 : S1x1x1.BroadcastsInDim S11008x4096x1 (![0, 1, 2] : Fin 3 → Fin S11008x4096x1.rank)
  reducesTo_S11008x4096x1_S11008x4096_d2 : S11008x4096x1.ReducesTo [2] S11008x4096
  h_S_ : 0 < S_.numel
  bcast_S11008_S1x1x11008_2 : S11008.BroadcastsInDim S1x1x11008 (![2] : Fin 1 → Fin S1x1x11008.rank)
  bcast_S1x1x11008_S2x2048x11008_0_1_2 : S1x1x11008.BroadcastsInDim S2x2048x11008 (![0, 1, 2] : Fin 3 → Fin S2x2048x11008.rank)
  gather_S11008x16_S11008x4096x1_S11008x4096_n_1_0_0_1_2_11_wf : GatherDims.WF S11008x16 S11008x4096x1 S11008x4096 [] [1] [0] [1] [0] 2 ![1, 1]
  dot_S2x2048x4096_S11008x4096_S2x2048x11008_2_1_01_0_n_n_wf : DotDims.WF S2x2048x4096 S11008x4096 S2x2048x11008 [2] [1] [0, 1] [0] [] []

variable [Facts₀]

def gather_S11008x16_S11008x4096x1_S11008x4096_n_1_0_0_1_2_11 : GatherDims S11008x16 S11008x4096x1 S11008x4096 where
  offsetDims := []
  collapsedSliceDims := [1]
  operandBatchingDims := [0]
  startIndicesBatchingDims := [0]
  startIndexMap := [1]
  indexVectorDim := 2
  sliceSizes := ![1, 1]
  wf := gather_S11008x16_S11008x4096x1_S11008x4096_n_1_0_0_1_2_11_wf
def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf

class Facts : Prop extends Facts₀ where

variable [Facts]
-- ==== Proof.KernelBody.lean ====
/-
  What the kernel's body leaves in its output block, as a pure function of its four input blocks.

  The body loads the packed codes `x1 : [512, 256]` and the table block `x2 : [16, 256]` once, then runs
  eight trips. Trip `k` extracts nibble `k` of every code word, selects for each the table entry of its
  column, loads columns `512k … 512k+511` of the activations block `x0 : [1024, 4096]` and adds the product
  of that slice with the selected `[512, 256]` weights to the accumulator. After the last trip the bias row
  `x3 : [1, 256]` is added and the sum stored over the whole output block.
  The run of the body finds the accumulator before trip `n` by a recursion over the trips; here it is shown
  to be the plain recursion `accBefore` over the blocks, and the stored block to be the last accumulator
  plus the bias.
-/
import proofs.«411746_j24000277250518_3_alg».proof.Proof.Gen.KernelIdeal.Frame
import Idealize.ShloMosaic.Lib.Pipeline.Value

set_option maxRecDepth 16384

noncomputable section

namespace Cert.LutLinear.Body

open Cert.KernelIdeal Cert.KernelIdeal.Gen Idealize.ShloMosaic Idealize.ShloMosaic.TcCoe Idealize.ShloMosaic.Tactic
open Idealize.SL Idealize.SL.Sem

variable {F : FTy → Type} [FloatOps F]

theorem zero2 : (![0, 0] : Fin 2 → Nat) = fun _ => 0 := by
  funext a; fin_cases a <;> rfl

/-- The loop runs eight trips. -/
theorem trips_eq : k0_t1_loop.trips = 8 := by decide

/-- The slice of the activations block that trip `k` multiplies: all rows, columns `512k … 512k+511`. -/
def xSlice (x0 : Vec F S1024x4096 .bf16) (k : Fin k0_t1_loop.trips) : Vec F S1024x512 .bf16 :=
  View.ld x0 (Rect.unit (s := S1024x4096) (k0_off1 k) S1024x512.size (k0_off1_inb k))

/-- Trip `k`'s new accumulator: the old one plus the slice times the weights selected by nibble `k`. -/
def tripVal (x0 : Vec F S1024x4096 .bf16) (x1 : Vec F S512x256 .i32) (x2 : Vec F S16x256 .f32)
    (k : Fin k0_t1_loop.trips) (acc : FVec F S1024x256 .f32) : FVec F S1024x256 .f32 :=
  k0_pay12 x2 acc (k0_pay14 x1 0#32 1#32 k)
    (k0_pay15 x1 (k0_pay2 x2) (k0_pay3 x2) (k0_pay4 x2) (k0_pay5 x2) (k0_pay6 x2) (k0_pay7 x2) (k0_pay8 x2) (k0_pay9 x2) 0#32 1#32 k)
    (k0_pay16 (k0_pay10 x2)) (xSlice x0 k)

/-- The accumulator before trip `n`: zero, then one `tripVal` per trip. -/
def accBefore (x0 : Vec F S1024x4096 .bf16) (x1 : Vec F S512x256 .i32) (x2 : Vec F S16x256 .f32) : ℕ → FVec F S1024x256 .f32
  | 0 => k0_pay11
  | n + 1 => if h : n < k0_t1_loop.trips then tripVal x0 x1 x2 ⟨n, h⟩ (accBefore x0 x1 x2 n) else accBefore x0 x1 x2 n

theorem accBefore_succ (x0 : Vec F S1024x4096 .bf16) (x1 : Vec F S512x256 .i32) (x2 : Vec F S16x256 .f32)
    (k : Fin k0_t1_loop.trips) : accBefore x0 x1 x2 (k.val + 1) = tripVal x0 x1 x2 k (accBefore x0 x1 x2 k.val) := by
  rw [accBefore, dif_pos k.isLt]

/-- What one trip of the body yields, opened once: the loop's step payload at the trip's nibble words, its selected
    weights and the slice it loads. -/
theorem trip_eq (𝒱 : Variants) (c : Dev nD) (bd : Option 𝒱.V) (i : grid0.Coords) (arg2 : Memref sig .tc .vmem S1024x4096 .bf16) (harg2 : arg2.IsWhole) (arg3 : Memref sig .tc .vmem S512x256 .i32) (harg3 : arg3.IsWhole) (arg4 : Memref sig .tc .vmem S16x256 .f32) (harg4 : arg4.IsWhole) (arg5 : Memref sig .tc .vmem S1x256 .f32) (harg5 : arg5.IsWhole) (arg6 : Memref sig .tc .vmem S1024x256 .f32) (harg6 : arg6.IsWhole)
    (x0 : Vec F S1024x4096 .bf16) (x1 : Vec F S512x256 .i32) (x2 : Vec F S16x256 .f32) (k : Fin k0_t1_loop.trips) (acc : FVec F S1024x256 .f32) :
    tripR_k0_t1 (F := F) 𝒱 c bd i arg2 harg2 arg3 harg3 arg4 harg4 arg5 harg5 arg6 harg6 x1 x2 (harg2.unread x0) k acc = tripVal x0 x1 x2 k acc := by
  unfold tripR_k0_t1 trip_k0_t1
  dsimp only
  sl_unfold_words
  rw [View.readAt_eq_ld, harg2.read_unread]
  rfl

/-- The run's carried value before trip `n` is `accBefore`. -/
theorem state_eq (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S16x256 .f32) (harg4 : arg4.IsWhole) (arg5 : Memref sig .tc .vmem S1x256 .f32) (harg5 : arg5.IsWhole) (arg6 : Memref sig .tc .vmem S1024x256 .f32) (harg6 : arg6.IsWhole)
    (x0 : Vec F S1024x4096 .bf16) (x1 : Vec F S512x256 .i32) (x2 : Vec F S16x256 .f32) (n : ℕ) :
    st_k0_t1 (F := F) Variants.none c none i arg2 harg2 arg3 harg3 arg4 harg4 arg5 harg5 arg6 harg6 x1 x2 (harg2.unread x0) k0_pay11 n = accBefore x0 x1 x2 n := by
  induction n with
  | zero => rfl
  | succ n ih =>
    by_cases h : n < k0_t1_loop.trips
    · refine (st_k0_t1_succ (F := F) Variants.none c none i arg2 harg2 arg3 harg3 arg4 harg4 arg5 harg5 arg6 harg6 x1 x2 (harg2.unread x0) k0_pay11 ⟨n, h⟩).trans ?_
      rw [trip_eq, ih]
      exact (accBefore_succ x0 x1 x2 ⟨n, h⟩).symm
    · rw [st_k0_t1.eq_2, accBefore, dif_neg h]
      unfold st_k0_t1Step
      rw [dif_neg h, ih]

/-- THE BODY'S BLOCK: what the body leaves in the output block is the accumulator after the eight trips plus the
    bias row, a pure function of the four input blocks. -/
theorem out_eq (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S16x256 .f32) (harg4 : arg4.IsWhole) (arg5 : Memref sig .tc .vmem S1x256 .f32) (harg5 : arg5.IsWhole) (arg6 : Memref sig .tc .vmem S1024x256 .f32) (harg6 : arg6.IsWhole)
    (x0 : Vec F S1024x4096 .bf16) (x1 : Vec F S512x256 .i32) (x2 : Vec F S16x256 .f32) (x3 : Vec F S1x256 .f32) :
    out0_A_4 c i arg2 harg2 arg3 harg3 arg4 harg4 arg5 harg5 arg6 harg6 x0 x1 x2 x3 = k0_pay13 (accBefore x0 x1 x2 8) x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  rw [View.canon_unit_zero (S := S1024x256) zero2]
  simp only [View.readAt_eq_ld, harg3.read_unread, harg4.read_unread, harg5.read_unread,
    View.ld_unit_zero (S := S512x256) zero2, View.ld_unit_zero (S := S16x256) zero2, View.ld_unit_zero (S := S1x256) zero2]
  rw [show Scf.trips (0#32) (Scalar.addi 0#32 8#32) 1#32 = 8 from by decide, state_eq]

end Cert.LutLinear.Body

end
-- ==== Proof.Words.lean ====
/-
  The packed 4-bit codes, as words.

  A 32-bit word `w` holds eight codes, code `s` in bits `4s … 4s+3`: `code w s = ⌊w / 16^s⌋ mod 16`.
  Both programs extract it by a right shift by `4s` and a mask with `15`; the kernel shifts logically, the
  reference arithmetically. The two shifts differ only in the bits they bring in from the top, and for
  `4s ≤ 28` those land at positions `≥ 4`, which the mask clears: both give the word `code w s`.
  The kernel then picks the table row by sixteen equality tests chained from a zero row; on a word that
  is one of `0 … 15` the chain returns that row. The reference reads the table through a gather whose
  index is wrapped when negative, clamped into `[0, 15]`, and masked by an in-range test: on a word
  that is one of `0 … 15` each of those steps is the identity.
-/
import Idealize.ShloMosaic.PureOps.Ideal
import Idealize.ShloMosaic.Lib.ValueIdx
import Idealize.ShloMosaic.Lib.Scf

noncomputable section

namespace Cert.LutLinear

open Idealize.ShloMosaic

/-- Code `s` of the packed word `w`: bits `4s … 4s+3`, as a number below 16. -/
def code (w : BitVec 32) (s : Fin 8) : Fin 16 := ⟨(w.toNat / 2 ^ (4 * s.val)) % 16, Nat.mod_lt _ (by norm_num)⟩

/-- A logical right shift by `4s` followed by the mask `15` is the code, as a word. -/
theorem ushift_mask (w : BitVec 32) (s : Fin 8) :
    (w >>> (4 * s.val)) &&& 15#32 = BitVec.ofNat 32 (code w s).val := by
  apply BitVec.eq_of_toNat_eq
  rw [BitVec.toNat_and, BitVec.toNat_ushiftRight, BitVec.toNat_ofNat, Nat.shiftRight_eq_div_pow]
  show (w.toNat / 2 ^ (4 * s.val)) &&& (2 ^ 4 - 1) = _
  rw [Nat.and_two_pow_sub_one_eq_mod]
  show _ = ((w.toNat / 2 ^ (4 * s.val)) % 16) % 2 ^ 32
  have : (w.toNat / 2 ^ (4 * s.val)) % 16 < 16 := Nat.mod_lt _ (by norm_num)
  omega

/-- An arithmetic right shift by `4s ≤ 28` agrees with the logical one under the mask `15`: the sign
    bits it brings in sit at positions `32 - 4s ≥ 4` and above. -/
theorem sshift_mask (w : BitVec 32) (s : Fin 8) :
    (w.sshiftRight (4 * s.val)) &&& 15#32 = (w >>> (4 * s.val)) &&& 15#32 := by
  apply BitVec.eq_of_getLsbD_eq
  intro i hi
  have hs := s.isLt
  rw [BitVec.getLsbD_and, BitVec.getLsbD_and, BitVec.getLsbD_sshiftRight, BitVec.getLsbD_ushiftRight]
  by_cases h4 : i < 4
  · have : 4 * s.val + i < 32 := by omega
    have h32 : ¬ 32 ≤ i := by omega
    simp [this, h32]
  · have : (15#32).getLsbD i = false := by
      have hh : (15#32 : BitVec 32) = BitVec.ofNat 32 (2 ^ 4 - 1) := rfl
      rw [hh, BitVec.getLsbD_ofNat, Nat.testBit_two_pow_sub_one]
      simp [h4]
    rw [this]; simp

/-- The kernel's extraction: on the vector unit a logical shift by the loop's amount `(0 + s·1)·4`,
    then the mask. -/
theorem code_vector (w : BitVec 32) (s : Fin 8) :
    IntOp.andi (IntOp.shrui .vector w (Scalar.muli (Scf.iv 0#32 1#32 s.val) 4#32)) 15#32
      = BitVec.ofNat 32 (code w s).val := by
  have hamt : Scalar.muli (Scf.iv 0#32 1#32 s.val) 4#32 = BitVec.ofNat 32 (4 * s.val) := by
    fin_cases s <;> rfl
  have hlt : (BitVec.ofNat 32 (4 * s.val)).toNat = 4 * s.val := by
    fin_cases s <;> rfl
  rw [hamt]
  unfold IntOp.shrui IntOp.andi
  rw [if_pos (by rw [hlt]; have := s.isLt; omega)]
  show (w >>> (BitVec.ofNat 32 (4 * s.val)).toNat) &&& 15#32 = _
  rw [hlt]
  exact ushift_mask w s

/-- The reference's extraction: on the host an arithmetic shift by `s·4`, then the mask. -/
theorem code_host (w : BitVec 32) (s : Fin 8) :
    IntOp.andi (IntOp.shrsi .host w (IntOp.muli (BitVec.ofNat 32 s.val) 4#32)) 15#32
      = BitVec.ofNat 32 (code w s).val := by
  have hamt : IntOp.muli (BitVec.ofNat 32 s.val) 4#32 = BitVec.ofNat 32 (4 * s.val) := by
    fin_cases s <;> rfl
  have hlt : (BitVec.ofNat 32 (4 * s.val)).toNat = 4 * s.val := by
    fin_cases s <;> rfl
  rw [hamt]
  unfold IntOp.shrsi IntOp.andi
  rw [if_pos (by rw [hlt]; have := s.isLt; omega)]
  show (w.sshiftRight (BitVec.ofNat 32 (4 * s.val)).toNat) &&& 15#32 = _
  rw [hlt, sshift_mask]
  exact ushift_mask w s

/-- Sixteen equality tests chained from `z`, the test for `c` choosing `l c`, the later test winning:
    on the word `n < 16` the chain is `l n`. -/
theorem select16 {α : Type} (z : α) (l : Fin 16 → α) (n : Fin 16) :
    Scalar.select (IntOp.cmpi .eq (BitVec.ofNat 32 n.val) 15#32) (l 15)
    (Scalar.select (IntOp.cmpi .eq (BitVec.ofNat 32 n.val) 14#32) (l 14)
    (Scalar.select (IntOp.cmpi .eq (BitVec.ofNat 32 n.val) 13#32) (l 13)
    (Scalar.select (IntOp.cmpi .eq (BitVec.ofNat 32 n.val) 12#32) (l 12)
    (Scalar.select (IntOp.cmpi .eq (BitVec.ofNat 32 n.val) 11#32) (l 11)
    (Scalar.select (IntOp.cmpi .eq (BitVec.ofNat 32 n.val) 10#32) (l 10)
    (Scalar.select (IntOp.cmpi .eq (BitVec.ofNat 32 n.val) 9#32) (l 9)
    (Scalar.select (IntOp.cmpi .eq (BitVec.ofNat 32 n.val) 8#32) (l 8)
    (Scalar.select (IntOp.cmpi .eq (BitVec.ofNat 32 n.val) 7#32) (l 7)
    (Scalar.select (IntOp.cmpi .eq (BitVec.ofNat 32 n.val) 6#32) (l 6)
    (Scalar.select (IntOp.cmpi .eq (BitVec.ofNat 32 n.val) 5#32) (l 5)
    (Scalar.select (IntOp.cmpi .eq (BitVec.ofNat 32 n.val) 4#32) (l 4)
    (Scalar.select (IntOp.cmpi .eq (BitVec.ofNat 32 n.val) 3#32) (l 3)
    (Scalar.select (IntOp.cmpi .eq (BitVec.ofNat 32 n.val) 2#32) (l 2)
    (Scalar.select (IntOp.cmpi .eq (BitVec.ofNat 32 n.val) 1#32) (l 1)
    (Scalar.select (IntOp.cmpi .eq (BitVec.ofNat 32 n.val) 0#32) (l 0) z))))))))))))))) = l n := by
  fin_cases n <;> rfl

/-- A code word is not negative: the wrap of a negative index leaves it alone. -/
theorem code_not_neg (n : Fin 16) : IntOp.cmpi .slt (BitVec.ofNat 32 n.val) 0#32 = 0#1 := by
  fin_cases n <;> rfl
/-- A code word passes the lower range test. -/
theorem code_ge (n : Fin 16) : IntOp.cmpi .sge (BitVec.ofNat 32 n.val) 0#32 = 1#1 := by
  fin_cases n <;> rfl
/-- A code word passes the upper range test. -/
theorem code_le (n : Fin 16) : IntOp.cmpi .sle (BitVec.ofNat 32 n.val) 15#32 = 1#1 := by
  fin_cases n <;> rfl
/-- Read signed and clamped into `[0, 15]`, a code word is its number. -/
theorem code_clamp (n : Fin 16) : min (BitVec.ofNat 32 n.val).toInt.toNat (16 - 1) = n.val := by
  fin_cases n <;> rfl

end Cert.LutLinear

end
-- ==== Proof.KernelBlock.lean ====
/-
  The kernel's output block at one entry, over the extended reals.

  With the blocks `x0 : [1024, 4096]` (activations, nibble-major columns), `x1 : [512, 256]` (packed codes),
  `x2 : [16, 256]` (the tables, one column per output channel) and `x3 : [1, 256]` (bias), entry `(r, cc)` of
  the block the body stores is
      (∑ s < 8, ∑ p < 512, x0[r, 512 s + p] · x2[code(x1[p, cc], s), cc]) + x3[0, cc].
  Each trip adds one inner sum: the matrix product of the slice with the selected weights, read at an entry,
  is the sum over the contracted axis; the selected weight at `(p, cc)` is column `cc` of the table at the code
  that nibble `s` of `x1[p, cc]` holds, because the sixteen chained tests find exactly that row; the changes
  of float format on the way are the identity on the extended reals.
-/
import proofs.«411746_j24000277250518_3_alg».proof.Proof.KernelBody
import proofs.«411746_j24000277250518_3_alg».proof.Proof.Words
import Idealize.ShloMosaic.Lib.ValueIdx
import Idealize.ShloMosaic.Lib.Pipeline.Value
import Idealize.ShloMosaic.PureOps.Ideal.Laws

set_option maxRecDepth 16384

noncomputable section

open scoped BigOperators

namespace Cert.LutLinear.Body

open Cert.KernelIdeal Cert.KernelIdeal.Gen Idealize.ShloMosaic Idealize.ShloMosaic.ValueIdx

/-- The nibble a trip extracts: its number. -/
def nibOf (k : Fin k0_t1_loop.trips) : Fin 8 := Fin.cast trips_eq k

/-- Column `512 s + p` of the activations block. -/
def col (s : Fin 8) (p : Fin 512) : Fin 4096 := ⟨s.val * 512 + p.val, by have := s.isLt; have := p.isLt; omega⟩

/-! ## A table row, broadcast down the 512 rows, at an entry -/

/-- Row `o` of the table block, cut out as a `[1, 256]` slice and broadcast to `[512, 256]`, at `(p, cc)`: the table
    block at `(o, cc)`. -/
theorem lutRow_apply (x2 : Vec Ideal S16x256 .f32) (o : Nat) (ho : o < 16) (h : S16x256.Slices ![o, 0] S1x256)
    (p : Fin 512) (cc : Fin 256) :
    broadcastTo S512x256 (shapeCast S1x256 (extractStridedSlice S1x256 ![o, 0] (k0_pay1 x2) h) shapeCasts_S1x256_S1x256)
        broadcasts_S1x256_S512x256 (ix2 p cc) = x2 (ix2 (⟨o, ho⟩ : Fin 16) cc) := by
  rw [shapeCast_self]
  refine (broadcastTo_apply _ _ (ix2 p cc) (ix2 (0 : Fin 1) cc) (fun a => ?_)).trans ?_
  · match a with
    | ⟨0, _⟩ => show 0 = if (1 : Nat) = 1 then 0 else _; rw [if_pos rfl]
    | ⟨1, _⟩ => show cc.val = if (256 : Nat) = 1 then 0 else cc.val; rw [if_neg (by decide)]
  refine (extractStridedSlice_apply _ _ _ (ix2 (0 : Fin 1) cc) (ix2 (⟨o, ho⟩ : Fin 16) cc) (fun a => ?_)).trans ?_
  · match a with
    | ⟨0, _⟩ => show o = o + 0; rfl
    | ⟨1, _⟩ => show cc.val = 0 + cc.val; omega
  unfold k0_pay1
  rw [shapeCast_self]
  rfl

/-! ## The slice a trip loads -/

/-- The column offset of trip `s`, as the body computes it in 32-bit words: `(0 + s·1)·512`, no wrap for `s < 8`. -/
theorem iv_mul (s : Fin 8) : (Scalar.indexCast (Scalar.muli (Scf.iv 0#32 1#32 s.val) 512#32)).toNat = s.val * 512 := by
  fin_cases s <;> rfl

/-- Trip `k` loads from row 0, -/
theorem off_row (k : Fin k0_t1_loop.trips) : k0_off1 k ⟨0, by decide⟩ = 0 := rfl
/-- and from column `512 k`. -/
theorem off_col (k : Fin k0_t1_loop.trips) : k0_off1 k ⟨1, by decide⟩ = (nibOf k).val * 512 :=
  iv_mul (nibOf k)

/-- The slice at `(r, p)` is the activations block at `(r, 512 k + p)`. -/
theorem xSlice_apply (x0 : Vec Ideal S1024x4096 .bf16) (k : Fin k0_t1_loop.trips) (r : Fin 1024) (p : Fin 512) :
    xSlice x0 k (ix2 r p) = x0 (ix2 r (col (nibOf k) p)) := by
  unfold xSlice
  show x0 ((Rect.unit (s := S1024x4096) (k0_off1 k) S1024x512.size (k0_off1_inb k)).idx (ix2 r p)) = _
  refine congrArg x0 (funext fun a => Fin.ext ?_)
  match a with
  | ⟨0, _⟩ =>
    show k0_off1 k ⟨0, by decide⟩ + 1 * r.val = r.val
    rw [off_row]; omega
  | ⟨1, _⟩ =>
    show k0_off1 k ⟨1, by decide⟩ + 1 * p.val = (nibOf k).val * 512 + p.val
    rw [off_col]; omega

/-! ## The matrix product's operand indices -/

theorem lhs_dot_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_dot_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_dot_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_dot_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-! ## One trip at an entry -/

/-- The nibble words of trip `k`, at an entry: the code that nibble `k` of the packed word holds. -/
theorem nibWord_apply (x1 : Vec Ideal S512x256 .i32) (k : Fin k0_t1_loop.trips) (p : Fin 512) (cc : Fin 256) :
    k0_pay14 x1 0#32 1#32 k (ix2 p cc) = BitVec.ofNat 32 (code (x1 (ix2 p cc)) (nibOf k)).val :=
  code_vector (x1 (ix2 p cc)) (nibOf k)

/-- ONE TRIP AT `(r, cc)`: the accumulator there plus the sum over the 512 packed rows of the slice's entry times
    the table entry that the code selects. -/
theorem tripVal_apply (x0 : Vec Ideal S1024x4096 .bf16) (x1 : Vec Ideal S512x256 .i32) (x2 : Vec Ideal S16x256 .f32)
    (k : Fin k0_t1_loop.trips) (acc : FVec Ideal S1024x256 .f32) (r : Fin 1024) (cc : Fin 256) :
    tripVal (F := Ideal) x0 x1 x2 k acc (ix2 r cc)
      = acc (ix2 r cc) + ∑ p : Fin 512, x0 (ix2 r (col (nibOf k) p)) * x2 (ix2 (code (x1 (ix2 p cc)) (nibOf k)) cc) := by
  unfold tripVal k0_pay12
  refine congrArg (acc (ix2 r cc) + ·) ?_
  simp only [matmul]
  rw [Ideal.matmul_constant_zero_apply, ← Equiv.sum_comp (contrEquiv1 dot_S1024x512_S512x256_S1024x256_1_0_0_1_n_n 512 rfl rfl).symm]
  refine Finset.sum_congr rfl fun p _ => ?_
  have hk := contrEquiv1_symm_val dot_S1024x512_S512x256_S1024x256_1_0_0_1_n_n 512 rfl rfl p
  have el : dot_S1024x512_S512x256_S1024x256_1_0_0_1_n_n.lhsIdx (ix2 r cc) ((contrEquiv1 dot_S1024x512_S512x256_S1024x256_1_0_0_1_n_n 512 rfl rfl).symm p) = ix2 r p := funext fun a => Fin.ext (by
    match a with
    | ⟨0, _⟩ => exact lhs_dot_0 _ _
    | ⟨1, _⟩ => exact (lhs_dot_1 _ _).trans hk)
  have er : dot_S1024x512_S512x256_S1024x256_1_0_0_1_n_n.rhsIdx (ix2 r cc) ((contrEquiv1 dot_S1024x512_S512x256_S1024x256_1_0_0_1_n_n 512 rfl rfl).symm p) = ix2 p cc := funext fun a => Fin.ext (by
    match a with
    | ⟨0, _⟩ => exact (rhs_dot_0 _ _).trans hk
    | ⟨1, _⟩ => exact rhs_dot_1 _ _)
  rw [el, er]
  refine congrArg₂ (· * ·) ?_ ?_
  · rw [shapeCast_self]
    exact xSlice_apply x0 k r p
  · unfold k0_pay15 k0_pay16 k0_pay2 k0_pay3 k0_pay4 k0_pay5 k0_pay6 k0_pay7 k0_pay8 k0_pay9 k0_pay10
    simp (disch := decide) only [select_apply, lutRow_apply]
    have hsel := select16 (broadcast S512x256 (FloatOps.ofBits (F := Ideal) FTy.bf16 0#16) (ix2 p cc)) (fun c => x2 (ix2 c cc))
      (code (x1 (ix2 p cc)) (nibOf k))
    rw [← nibWord_apply x1 k p cc] at hsel
    exact hsel

/-! ## The eight trips, and the block -/

/-- Nibble `s`'s share of entry `(r, cc)`: the slice's row against the selected weights' column. -/
def contrib (x0 : Vec Ideal S1024x4096 .bf16) (x1 : Vec Ideal S512x256 .i32) (x2 : Vec Ideal S16x256 .f32)
    (r : Fin 1024) (cc : Fin 256) (s : Fin 8) : EReal :=
  ∑ p : Fin 512, x0 (ix2 r (col s p)) * x2 (ix2 (code (x1 (ix2 p cc)) s) cc)

/-- The same, for any trip number (zero past the last trip): the summand of the induction below. -/
def contribN (x0 : Vec Ideal S1024x4096 .bf16) (x1 : Vec Ideal S512x256 .i32) (x2 : Vec Ideal S16x256 .f32)
    (r : Fin 1024) (cc : Fin 256) (s : ℕ) : EReal :=
  if h : s < 8 then contrib x0 x1 x2 r cc ⟨s, h⟩ else 0

/-- Before trip `n` the accumulator holds the shares of the nibbles below `n`. -/
theorem accBefore_apply (x0 : Vec Ideal S1024x4096 .bf16) (x1 : Vec Ideal S512x256 .i32) (x2 : Vec Ideal S16x256 .f32)
    (r : Fin 1024) (cc : Fin 256) (n : ℕ) (hn : n ≤ 8) :
    accBefore (F := Ideal) x0 x1 x2 n (ix2 r cc) = ∑ s ∈ Finset.range n, contribN x0 x1 x2 r cc s := by
  induction n with
  | zero =>
    rw [Finset.sum_range_zero]
    show Ideal.ofBits .f32 0x00000000#32 = 0
    exact Ideal.ofBits_zero_f32
  | succ n ih =>
    have h8 : n < 8 := hn
    have ht : n < k0_t1_loop.trips := by rw [trips_eq]; exact h8
    rw [Finset.sum_range_succ, ← ih (Nat.le_of_lt h8)]
    rw [show accBefore (F := Ideal) x0 x1 x2 (n + 1) = tripVal x0 x1 x2 ⟨n, ht⟩ (accBefore x0 x1 x2 n) from accBefore_succ x0 x1 x2 ⟨n, ht⟩,
      tripVal_apply]
    unfold contribN
    rw [dif_pos h8]
    rfl

/-- After the eight trips: the sum over the eight nibbles. -/
theorem accBefore_eight (x0 : Vec Ideal S1024x4096 .bf16) (x1 : Vec Ideal S512x256 .i32) (x2 : Vec Ideal S16x256 .f32)
    (r : Fin 1024) (cc : Fin 256) :
    accBefore (F := Ideal) x0 x1 x2 8 (ix2 r cc) = ∑ s : Fin 8, contrib x0 x1 x2 r cc s := by
  rw [accBefore_apply x0 x1 x2 r cc 8 le_rfl, Finset.sum_range]
  refine Finset.sum_congr rfl fun s _ => ?_
  unfold contribN
  rw [dif_pos s.isLt]

/-- THE BLOCK AT `(r, cc)`: the eight nibbles' shares plus the bias entry of the column. -/
theorem block_apply (c : Dev nD) (i : grid0.Coords) (arg2 : Memref sig .tc .vmem S1024x4096 .bf16) (harg2 : arg2.IsWhole) (arg3 : Memref sig .tc .vmem S512x256 .i32) (harg3 : arg3.IsWhole) (arg4 : Memref sig .tc .vmem S16x256 .f32) (harg4 : arg4.IsWhole) (arg5 : Memref sig .tc .vmem S1x256 .f32) (harg5 : arg5.IsWhole) (arg6 : Memref sig .tc .vmem S1024x256 .f32) (harg6 : arg6.IsWhole)
    (x0 : Vec Ideal S1024x4096 .bf16) (x1 : Vec Ideal S512x256 .i32) (x2 : Vec Ideal S16x256 .f32) (x3 : Vec Ideal S1x256 .f32)
    (r : Fin 1024) (cc : Fin 256) :
    out0_A_4 (F := Ideal) c i arg2 harg2 arg3 harg3 arg4 harg4 arg5 harg5 arg6 harg6 x0 x1 x2 x3 (ix2 r cc)
      = (∑ s : Fin 8, contrib x0 x1 x2 r cc s) + x3 (ix2 (0 : Fin 1) cc) := by
  rw [out_eq]
  unfold k0_pay13
  show accBefore (F := Ideal) x0 x1 x2 8 (ix2 r cc) + _ = _
  rw [accBefore_eight, shapeCast_self]
  refine congrArg (_ + ·) ?_
  refine broadcastTo_apply _ _ (ix2 r cc) (ix2 (0 : Fin 1) cc) (fun a => ?_)
  match a with
  | ⟨0, _⟩ => show 0 = if (1 : Nat) = 1 then 0 else _; rw [if_pos rfl]
  | ⟨1, _⟩ => show cc.val = if (256 : Nat) = 1 then 0 else cc.val; rw [if_neg (by decide)]

end Cert.LutLinear.Body

end
-- ==== Proof.Spec.lean ====
/-
  The specification: a linear layer whose weights are stored as 4-bit codes into per-channel tables.

  Inputs: activations `x : [2, 2048, 4096]`, packed codes `q : [512, 11008]` (word `q[p, o]` holds the
  codes of input features `8p … 8p+7` for output channel `o`, feature `8p+s` in nibble `s`), tables
  `lut : [11008, 16]` (one row of sixteen values per output channel) and `bias : [11008]`.
  The weight of input feature `i` for channel `o` is `W[i, o] = lut[o, code(q[i / 8, o], i mod 8)]`, and
      out[b, r, o] = (∑ i < 4096, x[b, r, i] · W[i, o]) + bias[o]
  over the extended reals. Both programs compute this function; they differ in the order of the sum
  (the kernel sums nibble by nibble, `i = 8p + s` grouped by `s`) and in how a code selects its table entry.
-/
import Idealize.ShloMosaic.PureOps.Ideal
import Idealize.ShloMosaic.Lib.ValueIdx
import proofs.«411746_j24000277250518_3_alg».proof.Proof.Words

noncomputable section

open scoped BigOperators

namespace Cert.LutLinear

open Idealize.ShloMosaic Idealize.ShloMosaic.ValueIdx

/-- The row of the packed array that holds input feature `i`'s code: `i / 8`. -/
def featWord (i : Fin 4096) : Fin 512 := ⟨i.val / 8, by have := i.isLt; omega⟩
/-- The nibble of that word: `i mod 8`. -/
def featNib (i : Fin 4096) : Fin 8 := ⟨i.val % 8, by omega⟩
/-- Input feature `8p + s`. -/
def feat (p : Fin 512) (s : Fin 8) : Fin 4096 := ⟨p.val * 8 + s.val, by have := p.isLt; have := s.isLt; omega⟩

theorem featWord_feat (p : Fin 512) (s : Fin 8) : featWord (feat p s) = p :=
  Fin.ext (by show (p.val * 8 + s.val) / 8 = p.val; have := s.isLt; omega)
theorem featNib_feat (p : Fin 512) (s : Fin 8) : featNib (feat p s) = s :=
  Fin.ext (by show (p.val * 8 + s.val) % 8 = s.val; have := s.isLt; omega)

/-- The dequantised weight `W[i, o]`: channel `o`'s table at feature `i`'s code. -/
def weight (q : IVec ⟨2, ![512, 11008]⟩ 32) (lut : FVec Ideal ⟨2, ![11008, 16]⟩ .f32) (i : Fin 4096) (o : Fin 11008) : EReal :=
  lut (ix2 o (code (q (ix2 (featWord i) o)) (featNib i)))

/-- One output entry. -/
def outAt (x : FVec Ideal ⟨3, ![2, 2048, 4096]⟩ .f32) (q : IVec ⟨2, ![512, 11008]⟩ 32)
    (lut : FVec Ideal ⟨2, ![11008, 16]⟩ .f32) (bias : FVec Ideal ⟨1, ![11008]⟩ .f32)
    (b : Fin 2) (r : Fin 2048) (o : Fin 11008) : EReal :=
  (∑ i : Fin 4096, x (ix3 b r i) * weight q lut i o) + bias (ix1 o)

/-- The whole result array as one function of the four argument arrays. -/
def G (x : FVec Ideal ⟨3, ![2, 2048, 4096]⟩ .f32) (q : IVec ⟨2, ![512, 11008]⟩ 32)
    (lut : FVec Ideal ⟨2, ![11008, 16]⟩ .f32) (bias : FVec Ideal ⟨1, ![11008]⟩ .f32) :
    FVec Ideal ⟨3, ![2, 2048, 11008]⟩ .f32 :=
  fun j => outAt x q lut bias (j 0) (j 1) (j 2)

/-- A sum over the 4096 input features, regrouped nibble by nibble: `i = 8p + s` runs over the features once as
    `(s, p)` runs over `8 × 512`. Addition of extended reals is commutative and associative, so nothing is asked of
    the summands. -/
theorem sum_features {M : Type*} [AddCommMonoid M] (f : Fin 4096 → M) :
    ∑ i, f i = ∑ s : Fin 8, ∑ p : Fin 512, f (feat p s) := by
  calc ∑ i, f i = ∑ ps : Fin 512 × Fin 8, f (finProdFinEquiv (m := 512) (n := 8) ps) :=
        (Equiv.sum_comp (finProdFinEquiv (m := 512) (n := 8)) f).symm
    _ = ∑ p : Fin 512, ∑ s : Fin 8, f (finProdFinEquiv (m := 512) (n := 8) (p, s)) := Fintype.sum_prod_type _
    _ = ∑ s : Fin 8, ∑ p : Fin 512, f (finProdFinEquiv (m := 512) (n := 8) (p, s)) := Finset.sum_comm
    _ = ∑ s : Fin 8, ∑ p : Fin 512, f (feat p s) := by
        refine Finset.sum_congr rfl fun s _ => Finset.sum_congr rfl fun p _ => congrArg f (Fin.ext ?_)
        show s.val + 8 * p.val = p.val * 8 + s.val
        omega

end Cert.LutLinear

end
-- ==== Proof.KernelHost.lean ====
/-
  The arrays the kernel region reads, entry by entry, in terms of the program's arguments.

  Before the region the program regroups the activations' feature axis: `x : [2, 2048, 4096]` is read as
  `[2, 2048, 512, 8]` (feature `8p + s` at `(p, s)`), its last two axes are exchanged, and the result is read as the
  matrix `[4096, 4096]` whose row `2048 b + r` holds, at column `512 s + p`, the activation `x[b, r, 8p + s]`;
  the change of float format that follows is the identity on the extended reals. The tables are transposed to
  `[16, 11008]` and the bias is read as a row `[1, 11008]`.
-/
import proofs.«411746_j24000277250518_3_alg».proof.Proof.KernelBlock
import proofs.«411746_j24000277250518_3_alg».proof.Proof.Spec
import Idealize.ShloMosaic.Lib.StableHlo.Run

set_option maxRecDepth 16384

noncomputable section

namespace Cert.LutLinear.Body

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The batch of matrix row `R`: `R / 2048`. -/
def rowBatch (R : Fin 4096) : Fin 2 := ⟨R.val / 2048, by have := R.isLt; omega⟩
/-- Its position in the batch: `R mod 2048`. -/
def rowPos (R : Fin 4096) : Fin 2048 := ⟨R.val % 2048, by omega⟩

/-- The four arrays the region reads, as it finds them, at their literal types. -/
abbrev xpermArr (c : Dev nD) : FVec Ideal S4096x4096 .bf16 := V m c main_v3
abbrev codesArr (c : Dev nD) : IVec S512x11008 32 := V m c main_arg1
abbrev lutTArr (c : Dev nD) : FVec Ideal S16x11008 .f32 := V m c main_v4
abbrev biasRowArr (c : Dev nD) : FVec Ideal S1x11008 .f32 := V m c main_v5
/-- The four arguments, at their literal types. -/
abbrev xArg (c : Dev nD) : FVec Ideal S2x2048x4096 .f32 := m ((c : Thread nD τ).loc main_arg0)
abbrev qArg (c : Dev nD) : IVec S512x11008 32 := m ((c : Thread nD τ).loc main_arg1)
abbrev lutArg (c : Dev nD) : FVec Ideal S11008x16 .f32 := m ((c : Thread nD τ).loc main_arg2)
abbrev biasArg (c : Dev nD) : FVec Ideal S11008 .f32 := m ((c : Thread nD τ).loc main_arg3)

/-- The packed codes reach the region as launched. -/
theorem codesArr_eq (c : Dev nD) : codesArr m c = qArg m c := V_main_arg1 m c

/-- The regrouped activations, as the host operations before the region compute them. -/
theorem xperm_eq (c : Dev nD) :
    xpermArr m c
      = truncf (F := Ideal) .bf16 (shapeCast S4096x4096 (transpose S2x2048x8x512 [0, 1, 3, 2]
          (shapeCast S2x2048x512x8 (xArg m c) shapeCasts_S2x2048x4096_S2x2048x512x8)
          transposes_S2x2048x512x8_S2x2048x8x512_0_1_3_2) shapeCasts_S2x2048x8x512_S4096x4096) bitsLt_bf16_f32 := by
  show StableHlo.after hostOps0 (fun b => m (c, b)) (Proc.devRef .tc main_v3) = _
  after_results <;> rfl

/-- Row `R`, column `512 s + p` of the regrouped activations is `x[R / 2048, R mod 2048, 8p + s]`. -/
theorem xperm_apply (c : Dev nD) (R : Fin 4096) (s : Fin 8) (p : Fin 512) :
    xpermArr m c (ix2 R (col s p)) = xArg m c (ix3 (rowBatch R) (rowPos R) (feat p s)) := by
  rw [xperm_eq]
  rw [truncf_apply]
  have hR := R.isLt; have hs := s.isLt; have hp := p.isLt
  refine (shapeCast_apply _ _ (ix2 R (col s p)) (ix4 (rowBatch R) (rowPos R) s p) ?_).trans ?_
  · rw [Shape.rowMajor_val_four, Shape.rowMajor_val_two]
    show ((R.val / 2048 * 2048 + R.val % 2048) * 8 + s.val) * 512 + p.val = R.val * 4096 + (s.val * 512 + p.val)
    omega
  refine (transpose_apply _ _ _ (ix4 (rowBatch R) (rowPos R) s p) (ix4 (rowBatch R) (rowPos R) p s) (fun b => ?_)).trans ?_
  · match b with
    | ⟨0, _⟩ => rfl
    | ⟨1, _⟩ => rfl
    | ⟨2, _⟩ => rfl
    | ⟨3, _⟩ => rfl
  refine shapeCast_apply _ _ (ix4 (rowBatch R) (rowPos R) p s) (ix3 (rowBatch R) (rowPos R) (feat p s)) ?_
  rw [Shape.rowMajor_val_three, Shape.rowMajor_val_four]
  show (R.val / 2048 * 2048 + R.val % 2048) * 4096 + (p.val * 8 + s.val)
    = ((R.val / 2048 * 2048 + R.val % 2048) * 512 + p.val) * 8 + s.val
  omega

/-- The transposed tables. -/
theorem lutT_eq (c : Dev nD) :
    lutTArr m c = transpose S16x11008 [1, 0] (lutArg m c) transposes_S11008x16_S16x11008_1_0 := by
  show StableHlo.after hostOps0 (fun b => m (c, b)) (Proc.devRef .tc main_v4) = _
  after_results <;> rfl

/-- Entry `(n, o)` of the transposed tables is `lut[o, n]`. -/
theorem lutT_apply (c : Dev nD) (n : Fin 16) (o : Fin 11008) :
    lutTArr m c (ix2 n o) = lutArg m c (ix2 o n) := by
  rw [lutT_eq]
  refine transpose_apply _ _ _ (ix2 n o) (ix2 o n) (fun b => ?_)
  match b with
  | ⟨0, _⟩ => rfl
  | ⟨1, _⟩ => rfl

/-- The bias as a row. -/
theorem biasRow_eq (c : Dev nD) :
    biasRowArr m c = shapeCast S1x11008 (biasArg m c) shapeCasts_S11008_S1x11008 := by
  show StableHlo.after hostOps0 (fun b => m (c, b)) (Proc.devRef .tc main_v5) = _
  after_results <;> rfl

/-- Entry `(0, o)` of the bias row is `bias[o]`. -/
theorem biasRow_apply (c : Dev nD) (o : Fin 11008) :
    biasRowArr m c (ix2 (0 : Fin 1) o) = biasArg m c (ix1 o) := by
  rw [biasRow_eq]
  refine shapeCast_apply _ _ (ix2 (0 : Fin 1) o) (ix1 o) ?_
  rw [Shape.rowMajor_val_one, Shape.rowMajor_val_two]
  show o.val = 0 * 11008 + o.val
  omega

end Cert.LutLinear.Body

end
-- ==== Proof.KernelArray.lean ====
/-
  From the blocks to the matrix the region writes.

  The grid has 4 × 43 points; point `(mi, ni)` reads rows `1024 mi … 1024 mi + 1023` of the regrouped activations
  (all 4096 columns), columns `256 ni … 256 ni + 255` of the packed codes, of the transposed tables and of the
  bias row, and writes the `[1024, 256]` block at `(mi, ni)` of the result matrix `[4096, 11008]`. Entry
  `(2048 b + r, o)` of that matrix ends at the specification's `out[b, r, o]`: the block's entry is the double sum
  over nibbles and packed rows, which is the single sum over the input features `i = 8p + s`. The blocks tile the
  matrix, so every entry is written, by the point `(row / 1024, column / 256)`.
-/
import proofs.«411746_j24000277250518_3_alg».proof.Proof.KernelHost

set_option maxRecDepth 16384

noncomputable section

open scoped BigOperators

namespace Cert.LutLinear.Body

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The result matrix as one function of the four arguments: row `2048 b + r`, column `o` holds `out[b, r, o]`. -/
def Gmat (x : FVec Ideal ⟨3, ![2, 2048, 4096]⟩ .f32) (q : IVec ⟨2, ![512, 11008]⟩ 32)
    (lut : FVec Ideal ⟨2, ![11008, 16]⟩ .f32) (bias : FVec Ideal ⟨1, ![11008]⟩ .f32) : S4096x11008.Idx → EReal :=
  fun j => outAt x q lut bias (rowBatch (j 0)) (rowPos (j 0)) (j 1)

/-- The index maps, decided once over the grid: the activations' block follows the output's row block and sits at
    column block 0; the codes', tables' and bias row's blocks sit at row block 0 and follow the output's column
    block; the output's block indices stay inside 4 × 43. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 3 ∧ win0_4.index t (1 : Fin 2) ≤ 42 :=
  (by decide +kernel : ∀ t : Fin grid0.N, _)

/-- Every block of the 4 × 43 tiling is some point's. -/
theorem idx_onto : ∀ (q0 : Fin 4) (q1 : Fin 43), ∃ t : Fin cfg0.N, win0_4.index t = ![q0.val, q1.val] :=
  (by decide +kernel : ∀ (q0 : Fin 4) (q1 : Fin 43), ∃ t : Fin grid0.N, win0_4.index t = ![q0.val, q1.val])

/-! ## The input blocks at a point, as reads of the arrays -/

/-- The four input blocks at point `t`, at their literal types. -/
abbrev xblk (c : Dev nD) (t : Fin cfg0.N) : Vec Ideal S1024x4096 .bf16 := iblk m c 0 t
abbrev qblk (c : Dev nD) (t : Fin cfg0.N) : Vec Ideal S512x256 .i32 := iblk m c 1 t
abbrev lblk (c : Dev nD) (t : Fin cfg0.N) : Vec Ideal S16x256 .f32 := iblk m c 2 t
abbrev bblk (c : Dev nD) (t : Fin cfg0.N) : Vec Ideal S1x256 .f32 := iblk m c 3 t

theorem xblk_apply (c : Dev nD) (t : Fin cfg0.N) (r : Fin 1024) (k : Fin 4096) (R : Fin 4096)
    (hR : R.val = win0_4.index t (0 : Fin 2) * 1024 + r.val) :
    xblk m c t (ix2 r k) = xpermArr m c (ix2 R k) := by
  obtain ⟨e0, e1, -⟩ := idx_facts t
  show V m c main_v3 (((cfg0.win 0).blk t).view.emb (ix2 r k)) = _
  refine congrArg (V m c main_v3) (funext fun a => Fin.ext ?_)
  match a with
  | ⟨0, _⟩ => show win0_0.index t (0 : Fin 2) * 1024 + 1 * r.val = R.val; omega
  | ⟨1, _⟩ => show win0_0.index t (1 : Fin 2) * 4096 + 1 * k.val = k.val; omega

theorem qblk_apply (c : Dev nD) (t : Fin cfg0.N) (p : Fin 512) (cc : Fin 256) (O : Fin 11008)
    (hO : O.val = win0_4.index t (1 : Fin 2) * 256 + cc.val) :
    qblk m c t (ix2 p cc) = codesArr m c (ix2 p O) := by
  obtain ⟨-, -, e2, e3, -⟩ := idx_facts t
  show V m c main_arg1 (((cfg0.win 1).blk t).view.emb (ix2 p cc)) = _
  refine congrArg (V m c main_arg1) (funext fun a => Fin.ext ?_)
  match a with
  | ⟨0, _⟩ => show win0_1.index t (0 : Fin 2) * 512 + 1 * p.val = p.val; omega
  | ⟨1, _⟩ => show win0_1.index t (1 : Fin 2) * 256 + 1 * cc.val = O.val; omega

theorem lblk_apply (c : Dev nD) (t : Fin cfg0.N) (n : Fin 16) (cc : Fin 256) (O : Fin 11008)
    (hO : O.val = win0_4.index t (1 : Fin 2) * 256 + cc.val) :
    lblk m c t (ix2 n cc) = lutTArr m c (ix2 n O) := by
  obtain ⟨-, -, -, -, e4, e5, -⟩ := idx_facts t
  show V m c main_v4 (((cfg0.win 2).blk t).view.emb (ix2 n cc)) = _
  refine congrArg (V m c main_v4) (funext fun a => Fin.ext ?_)
  match a with
  | ⟨0, _⟩ => show win0_2.index t (0 : Fin 2) * 16 + 1 * n.val = n.val; omega
  | ⟨1, _⟩ => show win0_2.index t (1 : Fin 2) * 256 + 1 * cc.val = O.val; omega

theorem bblk_apply (c : Dev nD) (t : Fin cfg0.N) (cc : Fin 256) (O : Fin 11008)
    (hO : O.val = win0_4.index t (1 : Fin 2) * 256 + cc.val) :
    bblk m c t (ix2 (0 : Fin 1) cc) = biasRowArr m c (ix2 (0 : Fin 1) O) := by
  obtain ⟨-, -, -, -, -, -, e6, e7, -⟩ := idx_facts t
  show V m c main_v5 (((cfg0.win 3).blk t).view.emb (ix2 (0 : Fin 1) cc)) = _
  refine congrArg (V m c main_v5) (funext fun a => Fin.ext ?_)
  match a with
  | ⟨0, _⟩ => show win0_3.index t (0 : Fin 2) * 1 + 1 * 0 = 0; omega
  | ⟨1, _⟩ => show win0_3.index t (1 : Fin 2) * 256 + 1 * cc.val = O.val; omega

/-! ## What a point writes back -/

/-- WHAT POINT `t` WRITES BACK is block `t` of `Gmat` of the arguments. -/
theorem flushed_eq (c : Dev nD) (t : Fin cfg0.N) :
    (dats m 0 c).flushed 4 t = ((cfg0.win 4).blk t).view.read (Elt Ideal) (Gmat (xArg m c) (qArg m c) (lutArg m c) (biasArg m c)) := by
  show (cfg0.win 4).cut (grid0.coords t) ((dats m 0 c).after 4 t) = _
  rw [after0_4]
  unfold outsAt0
  obtain ⟨-, -, -, -, -, -, -, -, b0, b1⟩ := idx_facts t
  funext y
  obtain ⟨r, cc, rfl⟩ : ∃ (r : Fin 1024) (cc : Fin 256), y = ix2 r cc := ⟨y 0, y 1, eq_ix2 y⟩
  have hr := r.isLt; have hc := cc.isLt
  obtain ⟨R, hR⟩ : ∃ R : Fin 4096, R.val = win0_4.index t (0 : Fin 2) * 1024 + r.val := ⟨⟨_, by omega⟩, rfl⟩
  obtain ⟨O, hO⟩ : ∃ O : Fin 11008, O.val = win0_4.index t (1 : Fin 2) * 256 + cc.val := ⟨⟨_, by omega⟩, rfl⟩
  have hemb : ((cfg0.win 4).blk t).view.emb (ix2 r cc) = (ix2 R O : S4096x11008.Idx) := funext fun a => Fin.ext (by
    match a with
    | ⟨0, _⟩ => show win0_4.index t (0 : Fin 2) * 1024 + 1 * r.val = R.val; omega
    | ⟨1, _⟩ => show win0_4.index t (1 : Fin 2) * 256 + 1 * cc.val = O.val; omega)
  refine (block_apply c (grid0.coords t) (ms0_0 t) (hs0_0 t) (ms0_1 t) (hs0_1 t) (ms0_2 t) (hs0_2 t) (ms0_3 t) (hs0_3 t) (ms0_4 t) (hs0_4 t) (xblk m c t) (qblk m c t) (lblk m c t) (bblk m c t) r cc).trans ?_
  rw [View.read_apply, hemb]
  unfold Gmat outAt
  show _ = (∑ i : Fin 4096, xArg m c (ix3 (rowBatch R) (rowPos R) i) * weight (qArg m c) (lutArg m c) i O)
    + biasArg m c (ix1 O)
  rw [sum_features]
  refine congrArg₂ (· + ·) (Finset.sum_congr rfl fun s _ => ?_) ?_
  · unfold contrib
    refine Finset.sum_congr rfl fun p _ => ?_
    rw [xblk_apply m c t r (col s p) R hR, xperm_apply, qblk_apply m c t p cc O hO, codesArr_eq,
      lblk_apply m c t _ cc O hO, lutT_apply]
    unfold weight
    rw [featWord_feat, featNib_feat]
  · rw [bblk_apply m c t cc O hO, biasRow_apply]

/-! ## The cover, and the matrix after the run -/

/-- An index of the matrix is in point `t`'s block iff each coordinate is in the block's range on its axis. -/
theorem mem_blk (t : Fin cfg0.N) (i : S4096x11008.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v6).slice (win0_4.rect t)).set ↔ _
  rw [View.set_slice_whole, Rect.mem_set_unit]
  exact Iff.rfl

/-- Every entry of the matrix is in the block of the point `(row / 1024, column / 256)`. -/
theorem cover (i : S4096x11008.Idx) :
    ∃ t : Fin cfg0.N, (cfg0.win 4).flush t = true ∧ i ∈ ((cfg0.win 4).blk t).view.set := by
  have hi0 : (i 0).val < 4096 := (i 0).isLt
  have hi1 : (i 1).val < 11008 := (i 1).isLt
  obtain ⟨t, ht⟩ := idx_onto ⟨(i 0).val / 1024, by omega⟩ ⟨(i 1).val / 256, by omega⟩
  have q0 : win0_4.index t (0 : Fin 2) = (i 0).val / 1024 := congrFun ht 0
  have q1 : win0_4.index t (1 : Fin 2) = (i 1).val / 256 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- THE MATRIX AFTER THE RUN is `Gmat` of the arguments. -/
theorem final (c : Dev nD) :
    (dats m 0 c).arrAt 4 cfg0.N = Gmat (xArg m c) (qArg m c) (lutArg m c) (biasArg m c) :=
  (dats m 0 c).arrAt_eq_of_cover 4 _ (fun t _ => flushed_eq m c t) cover

end Cert.LutLinear.Body

end
-- ==== Proof.KernelRun.lean ====
/-
  The kernel program's run, with its result as one function of the arguments.

  After the region one host operation reads the result matrix `[4096, 11008]` as `[2, 2048, 11008]`: entry
  `(b, r, o)` is the matrix's entry `(2048 b + r, o)`, which the region left at the specification's
  `out[b, r, o]`. So every weakly fair execution of the program ends with its result buffer at `G` of the four
  argument arrays, and the arguments as they were.
-/
import proofs.«411746_j24000277250518_3_alg».proof.Proof.KernelArray

set_option maxRecDepth 16384

noncomputable section

namespace Cert.LutLinear.Body

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg)

/-- The result buffer after the host operation that follows the region, at its literal type. -/
abbrev resultArr (c : Dev nD) : FVec Ideal S2x2048x11008 .f32 :=
  Pipeline.afterTail₀ cfgs (dats m) 0 (V0 m) [hostOps1] c main_v7

/-- THE RESULT is `G` of the arguments: the matrix `Gmat` read three-dimensionally. -/
theorem result_eq (c : Dev nD) : resultArr m c = G (xArg m c) (qArg m c) (lutArg m c) (biasArg m c) := by
  unfold resultArr Pipeline.afterTail₀
  show StableHlo.after hostOps1 _ (Proc.devRef .tc main_v7) = _
  after_results
  funext j
  obtain ⟨b, r, o, rfl⟩ : ∃ (b : Fin 2) (r : Fin 2048) (o : Fin 11008), j = ix3 b r o := ⟨j 0, j 1, j 2, eq_ix3 j⟩
  have hb := b.isLt; have hr := r.isLt
  obtain ⟨R, hR⟩ : ∃ R : Fin 4096, R.val = b.val * 2048 + r.val := ⟨⟨_, by omega⟩, rfl⟩
  refine (shapeCast_apply _ _ (ix3 b r o) (ix2 R o) ?_).trans ?_
  · rw [Shape.rowMajor_val_two, Shape.rowMajor_val_three]
    show R.val * 11008 + o.val = (b.val * 2048 + r.val) * 11008 + o.val
    rw [hR]
  refine (congrFun ((Pipeline.withArrays_arr spec0 launch0.win.arr_inj c _ _ 4).trans (final m c)) (ix2 R o)).trans ?_
  show outAt (xArg m c) (qArg m c) (lutArg m c) (biasArg m c) (rowBatch R) (rowPos R) o
    = outAt (xArg m c) (qArg m c) (lutArg m c) (biasArg m c) b r o
  have e1 : rowBatch R = b := Fin.ext (by show R.val / 2048 = b.val; omega)
  have e2 : rowPos R = r := Fin.ext (by show R.val % 2048 = r.val; omega)
  rw [e1, e2]

/-- THE RUN: every weakly fair execution of the kernel program terminates with its result at `G` of the arguments
    and the arguments unchanged. -/
theorem run : θ_run defs (onTc (τ := τ) (main (F := Ideal))) ⟨m, fun _ => 0, ρ⟩ (fun r => ∀ c : Dev nD,
      r.2.mem ((c.tc : Thread nD τ).loc main_v7) = G (xArg m c) (qArg m c) (lutArg m c) (biasArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.LutLinear.Body

end
-- ==== Proof.RefStages.lean ====
/-
  The run of the reference, read stage by stage.

  The run states the result buffer's contents as the fold of @main's 40 operations over the launch
  contents. The fold of a concatenation is the fold of the second list from the fold of the first, so the
  40 operations are read in three stretches: the first 14 compute the codes array from the packed
  words; the next 22 (the row-wise table lookup) compute the weights array from the codes and the tables;
  the last 4 contract the activations with the weights and add the broadcast bias. After each stretch the
  contents it left are named, and only what the later stretches read of them is kept: the codes (the
  weights) as the stage function of the argument arrays, and the argument arrays unchanged.
-/
import proofs.«411746_j24000277250518_3_alg».proof.Proof.RefRead
import Idealize.ShloMosaic.Lib.StableHlo.Run

noncomputable section

namespace Cert.LutLinear.Ref

open Cert.ReferenceIdeal Cert.ReferenceIdeal.Gen Idealize.ShloMosaic Idealize.ShloMosaic.TcCoe Idealize.SL.Sem
open Idealize.ShloMosaic.StableHlo Cert.ReferenceIdeal.Value Cert.ReferenceIdeal.Read

/-- The contents after two lists of operations run one after the other. -/
theorem after_append {t : Topo} {g : RefSig} {W : EltTy → Type} (l₁ l₂ : List (HloOp t g W)) (V : Valuation t g W) :
    after (l₁ ++ l₂) V = after l₂ (after l₁ V) := by
  induction l₁ generalizing V with
  | nil => rfl
  | cons op l ih => rw [List.cons_append, after_cons, after_cons, ih]

variable {F : FTy → Type} [FloatOps F]

/-- The first stretch: operations 1 to 14, which end with the codes array. -/
def opsCodes : List (HloOp τ sig (Elt F)) := (ops (F := F)).take 14
/-- The second stretch: operations 15 to 36, the row-wise table lookup, which end with the weights array. -/
def opsLookup : List (HloOp τ sig (Elt F)) := ((ops (F := F)).drop 14).take 22
/-- The third stretch: operations 37 to 40, the contraction and the bias. -/
def opsOut : List (HloOp τ sig (Elt F)) := (ops (F := F)).drop 36

set_option maxRecDepth 8192 in
/-- The 40 operations are the three stretches in order. -/
theorem ops_split : (ops (F := F)) = opsCodes (F := F) ++ (opsLookup (F := F) ++ opsOut (F := F)) := rfl

/-! ### The first stretch -/

set_option maxHeartbeats 400000 in
/-- After the first stretch the codes buffer holds the codes stage of the packed words. -/
theorem codes_after (V : Valuation τ sig (Elt F)) :
    after (opsCodes (F := F)) V (Proc.devRef .tc main_v11)
      = val_main_v11 (F := F) (V (Proc.devRef .tc main_arg1)) := by
  simp only [opsCodes, ops, List.take_succ_cons, List.take_zero]
  after_results_simp
  rfl

set_option maxHeartbeats 400000 in
/-- The first stretch writes none of the activations, the tables and the bias. -/
theorem codes_keeps (V : Valuation τ sig (Elt F)) :
    after (opsCodes (F := F)) V (Proc.devRef .tc main_arg0) = V (Proc.devRef .tc main_arg0)
    ∧ after (opsCodes (F := F)) V (Proc.devRef .tc main_arg2) = V (Proc.devRef .tc main_arg2)
    ∧ after (opsCodes (F := F)) V (Proc.devRef .tc main_arg3) = V (Proc.devRef .tc main_arg3) := by
  simp only [opsCodes, ops, List.take_succ_cons, List.take_zero]
  refine ⟨?_, ?_, ?_⟩ <;> after_results_simp

/-! ### The second stretch

The looked-up function's operations carry their buffers' types, and move contents between a buffer's own type and
the carried one by transports that are the identity at a literal buffer. They are removed before the closing
comparison: a transport undone by its inverse in general, and the five left over at their literal buffers. -/

/-- A typed reference's two transports undo each other. -/
theorem ofBuf_toBuf {g : RefSig} {W : EltTy → Type} {T : BufTy} (x : TRef g T) (v : T.Contents W) :
    x.ofBuf (x.toBuf v) = v := by
  obtain ⟨r, h, _, _⟩ := x
  subst h
  rfl

/-- At a literal buffer the carried type is the buffer's own, and a transport is the identity: the five that the
    stretch leaves (the codes, the tables, the index column, the wrapped codes, the weights). -/
theorem ofBuf_v11 (v : (⟨S11008x4096, .i32⟩ : BufTy).Contents (Elt F)) :
    (TRef.of (T := ⟨S11008x4096, .i32⟩) main_v11).ofBuf v = v := rfl
theorem ofBuf_arg2 (v : (⟨S11008x16, .f32⟩ : BufTy).Contents (Elt F)) :
    (TRef.of (T := ⟨S11008x16, .f32⟩) main_arg2).ofBuf v = v := rfl
theorem ofBuf_call0_v5 (v : (⟨S11008x4096x1, .i32⟩ : BufTy).Contents (Elt F)) :
    (TRef.of (T := ⟨S11008x4096x1, .i32⟩) main_call0_v5).ofBuf v = v := rfl
theorem toBuf_call0_v4 (v : (⟨S11008x4096, .i32⟩ : BufTy).Contents (Elt F)) :
    (TRef.of (T := ⟨S11008x4096, .i32⟩) main_call0_v4).toBuf v = v := rfl
theorem toBuf_v12 (v : (⟨S11008x4096, .f32⟩ : BufTy).Contents (Elt F)) :
    (TRef.of (T := ⟨S11008x4096, .f32⟩) main_v12).toBuf v = v := rfl

set_option maxHeartbeats 400000 in
/-- After the second stretch, from contents whose codes buffer holds the codes stage of `x1`, the weights buffer
    holds the weights stage of `x1` and the tables. -/
theorem weights_after (V : Valuation τ sig (Elt F)) (x1 : (⟨S512x11008, .i32⟩ : BufTy).Contents (Elt F))
    (h11 : V (Proc.devRef .tc main_v11) = val_main_v11 (F := F) x1) :
    after (opsLookup (F := F)) V (Proc.devRef .tc main_v12)
      = val_main_v12 (F := F) x1 (V (Proc.devRef .tc main_arg2)) := by
  simp only [opsLookup, ops, List.drop_succ_cons, List.drop_zero, List.take_succ_cons, List.take_zero]
  after_results_simp
  rw [h11]
  simp only [ofBuf_toBuf]
  rw [ofBuf_v11, ofBuf_arg2, toBuf_v12, ofBuf_call0_v5, toBuf_call0_v4]
  rfl

set_option maxHeartbeats 400000 in
/-- The second stretch writes neither the activations nor the bias. -/
theorem lookup_keeps (V : Valuation τ sig (Elt F)) :
    after (opsLookup (F := F)) V (Proc.devRef .tc main_arg0) = V (Proc.devRef .tc main_arg0)
    ∧ after (opsLookup (F := F)) V (Proc.devRef .tc main_arg3) = V (Proc.devRef .tc main_arg3) := by
  simp only [opsLookup, ops, List.drop_succ_cons, List.drop_zero, List.take_succ_cons, List.take_zero]
  refine ⟨?_, ?_⟩ <;> after_results_simp

/-! ### The third stretch -/

set_option maxHeartbeats 400000 in
/-- After the third stretch, from contents whose weights buffer holds the weights stage of `x1` and `x2`, the
    result buffer holds the last stage. -/
theorem out_after (V : Valuation τ sig (Elt F)) (x1 : (⟨S512x11008, .i32⟩ : BufTy).Contents (Elt F))
    (x2 : (⟨S11008x16, .f32⟩ : BufTy).Contents (Elt F))
    (h12 : V (Proc.devRef .tc main_v12) = val_main_v12 (F := F) x1 x2) :
    after (opsOut (F := F)) V (Proc.devRef .tc main_v16)
      = val_main_v16 (F := F) (V (Proc.devRef .tc main_arg0)) x1 x2 (V (Proc.devRef .tc main_arg3)) := by
  simp only [opsOut, ops, List.drop_succ_cons, List.drop_zero]
  after_results_simp
  rw [h12]
  rfl

/-! ### The whole run -/

/-- THE RUN'S RESULT IS THE LAST STAGE of the four argument arrays. -/
theorem res_eq_stage (m : (ℓ : Loc nD τ sig) → Buf (Elt F) ℓ) (c : Dev nD) :
    Cert.ReferenceIdeal.Value.res_main_v16 m c
      = Cert.ReferenceIdeal.Read.val_main_v16 (F := F) (m ((c.tc : Thread nD τ).loc main_arg0))
          (m ((c.tc : Thread nD τ).loc main_arg1)) (m ((c.tc : Thread nD τ).loc main_arg2))
          (m ((c.tc : Thread nD τ).loc main_arg3)) := by
  unfold res_main_v16
  rw [ops_split, after_append, after_append]
  have h11 := codes_after (F := F) (launchContents m c)
  have h12 := weights_after (F := F) (after (opsCodes (F := F)) (launchContents m c)) _ h11
  rw [(codes_keeps (F := F) (launchContents m c)).2.1] at h12
  rw [out_after (F := F) _ _ _ h12, (lookup_keeps (F := F) _).1, (lookup_keeps (F := F) _).2,
    (codes_keeps (F := F) _).1, (codes_keeps (F := F) _).2.2]

end Cert.LutLinear.Ref

end
-- ==== Proof.GatherRead.lean ====
/-
  A row-wise table lookup read at an entry.

  jnp's `take_along_axis(table, idx, axis=1)` over a table `[N, C]` and indices `[N, K]` prints as a
  `stablehlo.gather` that batches over axis 0 of both operands and takes its one start index, along
  axis 1 of the table, from the indices laid out as `[N, K, 1]`. Entry `(o, i)` of the result is the
  table's row `o` at the index `idx[o, i, 0]`, read as a signed integer and clamped into `[0, C - 1]`.
-/
import Idealize.ShloMosaic.PureOps.Ideal
import Idealize.ShloMosaic.Lib.ValueIdx

noncomputable section

namespace Cert.LutLinear

open Idealize.ShloMosaic Idealize.ShloMosaic.ValueIdx

/-- The dimension numbers of a lookup along axis 1, batched over axis 0: table `[N, C]`, start indices
    `[N, K, 1]`, result `[N, K]`; their side conditions `wf` are decided on a program's literal shapes. -/
abbrev rowTakeDims (N K C : Nat)
    (wf : GatherDims.WF ⟨2, ![N, C]⟩ ⟨3, ![N, K, 1]⟩ ⟨2, ![N, K]⟩ [] [1] [0] [1] [0] 2 ![1, 1]) :
    GatherDims ⟨2, ![N, C]⟩ ⟨3, ![N, K, 1]⟩ ⟨2, ![N, K]⟩ where
  offsetDims := []
  collapsedSliceDims := [1]
  operandBatchingDims := [0]
  startIndicesBatchingDims := [0]
  startIndexMap := [1]
  indexVectorDim := 2
  sliceSizes := ![1, 1]
  wf := wf

/-- THE LOOKUP READ AT `(o, i)`: row `o` of the table at the start index `idx[o, i, 0]`, read signed and
    clamped into `[0, C - 1]`. -/
theorem gather_rowTake_apply {α : Type} {N K C w : Nat} (hC : 0 < C)
    (wf : GatherDims.WF ⟨2, ![N, C]⟩ ⟨3, ![N, K, 1]⟩ ⟨2, ![N, K]⟩ [] [1] [0] [1] [0] 2 ![1, 1])
    (x : (⟨2, ![N, C]⟩ : Shape).Idx → α) (idx : IVec ⟨3, ![N, K, 1]⟩ w) (o : Fin N) (i : Fin K) :
    Host.gather (rowTakeDims N K C wf) x idx (ix2 o i)
      = x (ix2 o ⟨min (idx (ix3 o i (0 : Fin 1))).toInt.toNat (C - 1), by omega⟩) := by
  unfold Host.gather
  congr 1
  funext a
  refine Fin.ext ?_
  show (rowTakeDims N K C wf).start (ix2 o i) idx a + (rowTakeDims N K C wf).batchCoord (ix2 o i) a
      + (rowTakeDims N K C wf).offCoord (ix2 o i) a = _
  match a with
  | ⟨0, _⟩ =>
    -- the batching axis: no start index, the result's row, no offset
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ (rowTakeDims N K C wf).operandBatchingDims from List.mem_singleton.mpr rfl)]
    unfold GatherDims.siCoord
    rfl
  | ⟨1, _⟩ =>
    -- the looked-up axis: the clamped start index, no batching coordinate, collapsed
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (rowTakeDims N K C wf).startIndexMap from List.mem_singleton.mpr rfl)]
    have hsi : (rowTakeDims N K C wf).siIdx (ix2 o i) ⟨List.idxOf (⟨1, by decide⟩ : Fin 2) (rowTakeDims N K C wf).startIndexMap,
        List.idxOf_lt_length_iff.2 (List.mem_singleton.mpr rfl)⟩ = ix3 o i (0 : Fin 1) := by
      funext b; refine Fin.ext ?_
      match b with
      | ⟨0, _⟩ => rfl
      | ⟨1, _⟩ => rfl
      | ⟨2, _⟩ => rfl
    rw [hsi]
    rfl

end Cert.LutLinear

end
-- ==== Proof.RefIsG.lean ====
/-
  The reference program's last stage is the specification.

  The reference dequantises the whole weight matrix and then multiplies. Its stages, read at an index:
  the codes array `C[o, k]` (a broadcast of the packed words against the shift amounts `4·s`, an arithmetic
  right shift, the mask `15`, the reshape `[512, 8, 11008] → [4096, 11008]` and a transpose) holds the word
  `code(q[k / 8, o], k mod 8)`; the row-wise lookup `take_along_axis(lut, C, axis = 1)` wraps negative indices
  (a code is not negative), tests the index against `[0, 15]` (a code passes), reads the table through a
  gather whose start index is clamped into `[0, 15]` (a code is its own clamp), and selects the gathered
  value where the test passed; so the weights array is `W[o, k] = lut[o, code(q[k / 8, o], k mod 8)]`.
  The contraction `∑ k, x[b, r, k] · W[o, k]` plus the broadcast bias is the specification's entry.
-/
import proofs.«411746_j24000277250518_3_alg».proof.Proof.RefRead
import proofs.«411746_j24000277250518_3_alg».proof.Proof.Spec
import proofs.«411746_j24000277250518_3_alg».proof.Proof.Words
import proofs.«411746_j24000277250518_3_alg».proof.Proof.GatherRead
import Idealize.ShloMosaic.Lib.ValueIdx
import Idealize.ShloMosaic.Lib.Pipeline.Value
import Idealize.ShloMosaic.PureOps.Ideal.Laws

noncomputable section

open scoped BigOperators

namespace Cert.LutLinear.Ref

open Cert.ReferenceIdeal Cert.ReferenceIdeal.Gen Cert.ReferenceIdeal.Read Cert.LutLinear
open Idealize.ShloMosaic Idealize.ShloMosaic.ValueIdx

/-- THE CODES ARRAY AT `(o, k)`. Row-major position `k · 11008 + o` of `[4096, 11008]` is position
    `((k / 8) · 8 + k mod 8) · 11008 + o` of `[512, 8, 11008]`: the entry is word `q[k / 8, o]` shifted
    right by `(k mod 8) · 4` and masked with `15`. -/
theorem codes_apply (q : IVec ⟨2, ![512, 11008]⟩ 32) (o : Fin 11008) (k : Fin 4096) :
    val_main_v11 (F := Ideal) q (ix2 o k)
      = BitVec.ofNat 32 (code (q (ix2 (featWord k) o)) (featNib k)).val := by
  have ho := o.isLt
  have hk := k.isLt
  rw [val_main_v11_apply, val_main_v10_apply, val_main_v9_apply, val_main_v7_apply, val_main_v5_apply,
    val_main_v4_apply, val_main_v6_apply, val_main_v3_apply, val_main_v2_apply, val_main_v0_apply,
    val_main_v1_apply, val_main_c_apply, val_main_v8_apply, val_main_c_0_apply]
  have hw : idx_main_v4 (idx_main_v5 (idx_main_v10 (idx_main_v11 (ix2 o k)))) = ix2 (featWord k) o :=
    funext fun a => Fin.ext (by
      match a with
      | ⟨0, _⟩ => show (k.val * 11008 + o.val) / 88064 = k.val / 8; omega
      | ⟨1, _⟩ => show (k.val * 11008 + o.val) % 11008 = o.val; omega)
  have hs : ((idx_main_v3 (idx_main_v6 (idx_main_v10 (idx_main_v11 (ix2 o k))))) 0).val = (featNib k).val := by
    show (k.val * 11008 + o.val) / 11008 % 8 = k.val % 8
    omega
  rw [hw, hs]
  exact code_host _ _

/-- The wrap of negative indices (`idx < 0 ? idx + 16 : idx`) leaves a code word as it is. -/
theorem wrapped_apply (q : IVec ⟨2, ![512, 11008]⟩ 32) (o : Fin 11008) (k : Fin 4096) :
    val_main_call0_v4 (F := Ideal) q (ix2 o k)
      = BitVec.ofNat 32 (code (q (ix2 (featWord k) o)) (featNib k)).val := by
  rw [val_main_call0_v4_apply, val_main_call0_v1_apply, codes_apply, val_main_call0_v0_apply,
    val_main_call0_c_apply, code_not_neg, select_zero]

/-- The index column `[11008, 4096, 1]` (the wrapped codes with a unit axis added) at `(o, k, 0)`:
    row-major position `(o · 4096 + k) · 1 + 0` is position `o · 4096 + k` of `[11008, 4096]`. -/
theorem column_apply (q : IVec ⟨2, ![512, 11008]⟩ 32) (o : Fin 11008) (k : Fin 4096) :
    val_main_call0_v5 (F := Ideal) q (ix3 o k (0 : Fin 1))
      = BitVec.ofNat 32 (code (q (ix2 (featWord k) o)) (featNib k)).val := by
  have ho := o.isLt
  have hk := k.isLt
  rw [val_main_call0_v5_apply]
  have hi : idx_main_call0_v5 (ix3 o k (0 : Fin 1)) = ix2 o k :=
    funext fun a => Fin.ext (by
      match a with
      | ⟨0, _⟩ => show ((o.val * 4096 + k.val) * 1 + 0) / 4096 = o.val; omega
      | ⟨1, _⟩ => show ((o.val * 4096 + k.val) * 1 + 0) % 4096 = k.val; omega)
  rw [hi]
  exact wrapped_apply q o k

/-- The two range tests at `(o, k, 0)`: a code word is at least `0` and at most `15`. -/
theorem inRange_apply (q : IVec ⟨2, ![512, 11008]⟩ 32) (o : Fin 11008) (k : Fin 4096) :
    val_main_call0_v11 (F := Ideal) q (ix3 o k (0 : Fin 1)) = 1#1 := by
  rw [val_main_call0_v11_apply, val_main_call0_v7_apply, val_main_call0_v10_apply, column_apply,
    val_main_call0_v6_apply, val_main_call0_c_2_apply, val_main_call0_v9_apply, val_main_call0_v8_apply,
    val_main_call0_c_1_apply, code_ge, code_le]
  rfl

/-- A fold of a commutative, associative operation over an axis of extent one has one term. -/
theorem fold_univ_of_eq_one {α : Type} {n : Nat} (hn : n = 1) (f : α → α → α) [Std.Commutative f] [Std.Associative f]
    (b : α) (g : Fin n → α) :
    (Finset.univ : Finset (Fin n)).fold f b g = f (g ⟨0, by omega⟩) b := by
  subst hn
  rw [Finset.univ_unique, Finset.fold_singleton]
  rfl

/-- The shapes of the reduction of the range test over its unit axis. -/
theorem reduces_unit : S11008x4096x1.Reduces [2] S11008x4096 := by decide

/-- THE MASK AT `(o, k)`: the conjunction, from `1`, of the range test over the unit axis `2` has the one
    term `(o, k, 0)`, and that term is `1`. -/
theorem mask_apply (q : IVec ⟨2, ![512, 11008]⟩ 32) (o : Fin 11008) (k : Fin 4096) :
    val_main_call0_v12 (F := Ideal) q (ix2 o k) = 1#1 := by
  unfold val_main_call0_v12
  rw [Host.reduce_eq_fold_single IntOp.andi _ _ Facts₀.reducesTo_S11008x4096x1_S11008x4096_d2 reduces_unit]
  rw [fold_univ_of_eq_one (show S11008x4096x1.size 2 = 1 from rfl), Function.comp_apply]
  have hl : reduces_unit.lift (ix2 o k) ⟨0, by decide⟩ = ix3 o k (0 : Fin 1) :=
    funext fun a => Fin.ext (by
      match a with
      | ⟨0, _⟩ => rfl
      | ⟨1, _⟩ => rfl
      | ⟨2, _⟩ => rfl)
  rw [hl, inRange_apply]
  rfl

/-- THE GATHER AT `(o, k)`: row `o` of the table at the start index `idx[o, k, 0]` read signed and clamped
    into `[0, 15]`; the start index is a code word, which is its own clamp. -/
theorem gathered_apply (q : IVec ⟨2, ![512, 11008]⟩ 32) (lut : FVec Ideal ⟨2, ![11008, 16]⟩ .f32)
    (o : Fin 11008) (k : Fin 4096) :
    val_main_call0_v13 (F := Ideal) q lut (ix2 o k) = weight q lut k o := by
  unfold val_main_call0_v13
  show Host.gather (rowTakeDims 11008 4096 16 Facts₀.gather_S11008x16_S11008x4096x1_S11008x4096_n_1_0_0_1_2_11_wf)
      lut (val_main_call0_v5 (F := Ideal) q) (ix2 o k) = _
  rw [gather_rowTake_apply (by decide)]
  unfold weight
  refine congrArg lut (congrArg (ix2 o) (Fin.ext ?_))
  show min (val_main_call0_v5 (F := Ideal) q (ix3 o k (0 : Fin 1))).toInt.toNat (16 - 1) = _
  rw [column_apply]
  exact code_clamp _

/-- THE WEIGHTS ARRAY AT `(o, k)`: the mask passes, so the select takes the gathered table entry. -/
theorem weights_apply (q : IVec ⟨2, ![512, 11008]⟩ 32) (lut : FVec Ideal ⟨2, ![11008, 16]⟩ .f32)
    (o : Fin 11008) (k : Fin 4096) :
    val_main_v12 (F := Ideal) q lut (ix2 o k) = weight q lut k o := by
  rw [val_main_v12_apply, mask_apply, select_one, gathered_apply]

/-- THE LAST STAGE IS THE SPECIFICATION: at `(b, r, o)` the contraction reads `x[b, r, k]` against
    `W[o, k]`, and the twice-broadcast bias reads `bias[o]`. -/
theorem stage_eq_G (x : FVec Ideal ⟨3, ![2, 2048, 4096]⟩ .f32) (q : IVec ⟨2, ![512, 11008]⟩ 32)
    (lut : FVec Ideal ⟨2, ![11008, 16]⟩ .f32) (bias : FVec Ideal ⟨1, ![11008]⟩ .f32) :
    Cert.ReferenceIdeal.Read.val_main_v16 (F := Ideal) x q lut bias = Cert.LutLinear.G x q lut bias := by
  funext j
  obtain ⟨b, r, o, rfl⟩ : ∃ b r o, j = ix3 b r o := ⟨j 0, j 1, j 2, eq_ix3 j⟩
  rw [val_main_v16_apply, val_main_v13_apply, val_main_v15_apply, val_main_v14_apply]
  show (∑ k : Fin 4096, x (lidx_main_v13 (ix3 b r o) k) * val_main_v12 (F := Ideal) q lut (ridx_main_v13 (ix3 b r o) k))
      + bias (idx_main_v14 (idx_main_v15 (ix3 b r o))) = outAt x q lut bias b r o
  unfold outAt
  have hb : idx_main_v14 (idx_main_v15 (ix3 b r o)) = ix1 o :=
    funext fun a => Fin.ext (by
      match a with
      | ⟨0, _⟩ => rfl)
  rw [hb]
  congr 1
  refine Finset.sum_congr rfl fun k _ => ?_
  have hl : lidx_main_v13 (ix3 b r o) k = ix3 b r k :=
    funext fun a => Fin.ext (by
      match a with
      | ⟨0, _⟩ => rfl
      | ⟨1, _⟩ => rfl
      | ⟨2, _⟩ => rfl)
  have hr : ridx_main_v13 (ix3 b r o) k = ix2 o k :=
    funext fun a => Fin.ext (by
      match a with
      | ⟨0, _⟩ => rfl
      | ⟨1, _⟩ => rfl)
  rw [hl, hr, weights_apply]

end Cert.LutLinear.Ref

end
-- ==== Proof.lean ====
/-
  A linear layer with 4-bit table-coded weights: the kernel against its reference, over the extended reals.

  Both programs compute, for activations `x : [2, 2048, 4096]`, packed codes `q : [512, 11008]`, per-channel tables
  `lut : [11008, 16]` and `bias : [11008]`,
      out[b, r, o] = (∑ i < 4096, x[b, r, i] · lut[o, code(q[i / 8, o], i mod 8)]) + bias[o],
  where `code(w, s)` is nibble `s` of the word `w` (`Cert.LutLinear.G`).
  The reference extracts the nibble by an arithmetic shift and a mask, looks the table up through a gather
  whose wrap, clamp and range mask are the identity on a code, and contracts over all 4096 features at once.
  The kernel regroups the features nibble-major on the host, and in each of eight trips extracts one nibble by a
  logical shift and a mask, selects the table entry by sixteen chained equality tests, and accumulates the product
  of a `[1024, 512]` slice with the selected `[512, 256]` weights; the bias is added after the last trip. The two
  shifts agree under the mask; the chain of tests returns the entry at the code; the eight partial sums over
  `p < 512` are the one sum over `i = 8p + s`, by commutativity and associativity of addition alone, so no input
  needs to be finite; the changes of float format are the identity on the extended reals.
  The kernel's frames are the generated ones; the reference's is its run with the result dropped; the ideal pass
  rewrote nothing, so `preserves` is trivial.
-/
import proofs.«411746_j24000277250518_3_alg».proof.Defs
import proofs.«411746_j24000277250518_3_alg».proof.Proof.Gen.Kernel
import proofs.«411746_j24000277250518_3_alg».proof.Proof.Gen.Kernel.Skeleton
import proofs.«411746_j24000277250518_3_alg».proof.Proof.Gen.Kernel.Loops
import proofs.«411746_j24000277250518_3_alg».proof.Proof.Gen.Kernel.Launch
import proofs.«411746_j24000277250518_3_alg».proof.Proof.Gen.Kernel.Points
import proofs.«411746_j24000277250518_3_alg».proof.Proof.Gen.Kernel.Frame
import proofs.«411746_j24000277250518_3_alg».proof.Proof.Gen.KernelIdeal
import proofs.«411746_j24000277250518_3_alg».proof.Proof.Gen.KernelIdeal.Skeleton
import proofs.«411746_j24000277250518_3_alg».proof.Proof.Gen.KernelIdeal.Loops
import proofs.«411746_j24000277250518_3_alg».proof.Proof.Gen.KernelIdeal.Launch
import proofs.«411746_j24000277250518_3_alg».proof.Proof.Gen.KernelIdeal.Points
import proofs.«411746_j24000277250518_3_alg».proof.Proof.Gen.KernelIdeal.Frame
import proofs.«411746_j24000277250518_3_alg».proof.Proof.Gen.ReferenceIdeal
import proofs.«411746_j24000277250518_3_alg».proof.Proof.Gen.Pre_finite_inputs
import proofs.«411746_j24000277250518_3_alg».proof.Proof.KernelRun
import proofs.«411746_j24000277250518_3_alg».proof.Proof.RefStages
import proofs.«411746_j24000277250518_3_alg».proof.Proof.RefIsG
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference terminates with its arguments unchanged: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the four arguments both programs end with their results at `G` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.LutLinear.Body.run m ρ, ?_⟩
  refine (θ_run Cert.ReferenceIdeal.defs _ _).mono (fun _ h c => ⟨(h c).1.trans ?_, (h c).2⟩)
    (Cert.ReferenceIdeal.Value.run (F := Ideal) m' ρ')
  rw [Cert.LutLinear.Ref.res_eq_stage, Cert.LutLinear.Ref.stage_eq_G, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
